-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32x32 : Shape := ⟨3, ![4096, 32, 32]⟩
abbrev S1024x10000 : Shape := ⟨2, ![1024, 10000]⟩
abbrev S_ : Shape := ⟨0, ![]⟩

class Facts : Prop where
  bcast_S_S4096x32x32 : S_.BroadcastsInDim S4096x32x32 (![] : Fin 0 → Fin S4096x32x32.rank)
  reducesTo_S4096x32x32_S_d0_1_2 : S4096x32x32.ReducesTo [0, 1, 2] S_
  h_S_ : 0 < S_.numel
  bcast_S_S1024x10000 : S_.BroadcastsInDim S1024x10000 (![] : Fin 0 → Fin S1024x10000.rank)
  reducesTo_S1024x10000_S_d0_1 : S1024x10000.ReducesTo [0, 1] S_

variable [Facts]

def fn {F : FTy → Type} [FloatOps F] (main_arg0 : FVec F S4096x32x32 .f32) (main_arg1 : FVec F S1024x10000 .f32) : IVec S_ 1 :=
  let main_v0 : FVec F S4096x32x32 .f32 := Host.absf main_arg0
  let main_cst : FVec F S_ .f32 := constant S_ .f32 0x7F800000#32
  let main_v1 : FVec F S4096x32x32 .f32 := broadcastInDim S4096x32x32 ![] bcast_S_S4096x32x32 main_cst
  let main_v2 : IVec S4096x32x32 1 := cmpf .olt main_v0 main_v1
  let main_c : IVec S_ 1 := constantI S_ 1 1#1
  let main_v3 : IVec S_ 1 := (fun x v => Host.reduce IntOp.andi x v reducesTo_S4096x32x32_S_d0_1_2 h_S_) main_v2 main_c
  let main_v4 : FVec F S1024x10000 .f32 := Host.absf main_arg1
  let main_cst_0 : FVec F S_ .f32 := constant S_ .f32 0x7F800000#32
  let main_v5 : FVec F S1024x10000 .f32 := broadcastInDim S1024x10000 ![] bcast_S_S1024x10000 main_cst_0
  let main_v6 : IVec S1024x10000 1 := cmpf .olt main_v4 main_v5
  let main_c_1 : IVec S_ 1 := constantI S_ 1 1#1
  let main_v7 : IVec S_ 1 := (fun x v => Host.reduce IntOp.andi x v reducesTo_S1024x10000_S_d0_1 h_S_) main_v6 main_c_1
  let main_v8 : IVec S_ 1 := andi main_v3 main_v7
  main_v8
-- ==== Kernel.lean ====
abbrev S4096x32x32 : Shape := ⟨3, ![4096, 32, 32]⟩
abbrev S1024x10000 : Shape := ⟨2, ![1024, 10000]⟩
abbrev S4096x1024 : Shape := ⟨2, ![4096, 1024]⟩
abbrev S4096x10000 : Shape := ⟨2, ![4096, 10000]⟩
abbrev S256x1024 : Shape := ⟨2, ![256, 1024]⟩
abbrev S1024x5120 : Shape := ⟨2, ![1024, 5120]⟩
abbrev S256x5120 : Shape := ⟨2, ![256, 5120]⟩

abbrev nBuf : Space → Nat
  | .hbm => 5
  | .vmem => 6
  | .smem => 0
  | _ => 0

abbrev bufTy : (tb : Table) → Fin (tcTables nBuf tb) → BufTy
  | .hbm, ⟨0, _⟩ => ⟨S4096x32x32, .f32⟩
  | .hbm, ⟨1, _⟩ => ⟨S1024x10000, .f32⟩
  | .hbm, ⟨2, _⟩ => ⟨S4096x1024, .f32⟩
  | .hbm, ⟨3, _⟩ => ⟨S1024x10000, .bf16⟩
  | .hbm, ⟨4, _⟩ => ⟨S4096x10000, .f32⟩
  | .local _ .vmem, ⟨0, _⟩ => ⟨S256x1024, .f32⟩
  | .local _ .vmem, ⟨1, _⟩ => ⟨S256x1024, .f32⟩
  | .local _ .vmem, ⟨2, _⟩ => ⟨S1024x5120, .bf16⟩
  | .local _ .vmem, ⟨3, _⟩ => ⟨S1024x5120, .bf16⟩
  | .local _ .vmem, ⟨4, _⟩ => ⟨S256x5120, .f32⟩
  | .local _ .vmem, ⟨5, _⟩ => ⟨S256x5120, .f32⟩
  | _, _ => ⟨S4096x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x5120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4096x32x32_S4096x1024 : S4096x32x32.ShapeCasts S4096x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x5120_S1024x5120_0_0 : ∀ a, (![0, 0] : Fin 2 → Nat) a + S1024x5120.size a ≤ S1024x5120.size a
  h_S1024x5120 : 0 < S1024x5120.numel
  shapeCasts_S1024x5120_S1024x5120 : S1024x5120.ShapeCasts S1024x5120
  inb_S256x5120_S256x5120_0_0 : ∀ a, (![0, 0] : Fin 2 → Nat) a + S256x5120.size a ≤ S256x5120.size a
  h_S256x5120 : 0 < S256x5120.numel
  dot_S256x1024_S1024x5120_S256x5120_1_0_0_1_n_n_wf : DotDims.WF S256x1024 S1024x5120 S256x5120 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x5120.size a < S1024x10000.size a
  hwx0_1 : ∀ i : grid0.Coords, EltTy.bits .bf16 = 32 ∨ (Rect.unit (s := S1024x10000) (fun a => cc0_transform_1 i a * S1024x5120.size a) (fun a => (Pipeline.Clip.of (cc0_transform_1 i a) (S1024x5120.size a) (S1024x10000.size a)).extent (S1024x5120.size a)) fun a => Pipeline.Clip.inb (Pipeline.Clip.ok_of (hstart0_1 i a))).WholeWords (EltTy.packing .bf16)
  hwxs0_1 : ∀ i : grid0.Coords, EltTy.bits .bf16 = 32 ∨ (Rect.unit (s := S1024x5120) (fun _ => 0) (fun a => (Pipeline.Clip.of (cc0_transform_1 i a) (S1024x5120.size a) (S1024x10000.size a)).extent (S1024x5120.size a)) fun a => (Nat.zero_add _).trans_le (Pipeline.Clip.extent_le (Pipeline.Clip.ok_of (hstart0_1 i a)))).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S256x5120.size a < S4096x10000.size a
  hwx0_2 : ∀ i : grid0.Coords, EltTy.bits .f32 = 32 ∨ (Rect.unit (s := S4096x10000) (fun a => cc0_transform_2 i a * S256x5120.size a) (fun a => (Pipeline.Clip.of (cc0_transform_2 i a) (S256x5120.size a) (S4096x10000.size a)).extent (S256x5120.size a)) fun a => Pipeline.Clip.inb (Pipeline.Clip.ok_of (hstart0_2 i a))).WholeWords (EltTy.packing .f32)
  hwxs0_2 : ∀ i : grid0.Coords, EltTy.bits .f32 = 32 ∨ (Rect.unit (s := S256x5120) (fun _ => 0) (fun a => (Pipeline.Clip.of (cc0_transform_2 i a) (S256x5120.size a) (S4096x10000.size a)).extent (S256x5120.size a)) fun a => (Nat.zero_add _).trans_le (Pipeline.Clip.extent_le (Pipeline.Clip.ok_of (hstart0_2 i a)))).WholeWords (EltTy.packing .f32)

variable [Facts₀]

def dot_S256x1024_S1024x5120_S256x5120_1_0_0_1_n_n : DotDims S256x1024 S1024x5120 S256x5120 where
  lhsContracting := [1]
  rhsContracting := [0]
  lhsNonContracting := [0]
  rhsNonContracting := [1]
  lhsBatch := []
  rhsBatch := []
  wf := dot_S256x1024_S1024x5120_S256x5120_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_v1) S1024x5120.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v2) S256x5120.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x32x32 : Shape := ⟨3, ![4096, 32, 32]⟩
abbrev S1024x10000 : Shape := ⟨2, ![1024, 10000]⟩
abbrev S4096x1024 : Shape := ⟨2, ![4096, 1024]⟩
abbrev S4096x10000 : Shape := ⟨2, ![4096, 10000]⟩

abbrev nBuf : Space → Nat
  | .hbm => 4
  | .vmem => 0
  | .smem => 0
  | _ => 0

abbrev bufTy : (tb : Table) → Fin (tcTables nBuf tb) → BufTy
  | .hbm, ⟨0, _⟩ => ⟨S4096x32x32, .f32⟩
  | .hbm, ⟨1, _⟩ => ⟨S1024x10000, .f32⟩
  | .hbm, ⟨2, _⟩ => ⟨S4096x1024, .f32⟩
  | .hbm, ⟨3, _⟩ => ⟨S4096x10000, .f32⟩
  | _, _ => ⟨S4096x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S4096x32x32_S4096x1024 : S4096x32x32.ShapeCasts S4096x1024
  dot_S4096x1024_S1024x10000_S4096x10000_1_0_0_1_n_n_wf : DotDims.WF S4096x1024 S1024x10000 S4096x10000 [1] [0] [0] [1] [] []

variable [Facts₀]

def dot_S4096x1024_S1024x10000_S4096x10000_1_0_0_1_n_n : DotDims S4096x1024 S1024x10000 S4096x10000 where
  lhsContracting := [1]
  rhsContracting := [0]
  lhsNonContracting := [0]
  rhsNonContracting := [1]
  lhsBatch := []
  rhsBatch := []
  wf := dot_S4096x1024_S1024x10000_S4096x10000_1_0_0_1_n_n_wf

class Facts : Prop extends Facts₀ where

variable [Facts]
-- ==== Proof.KBody.lean ====
/-
  The kernel body as one step of the pipeline. On whole staging buffers holding the activations' tile
  `x0` (256 rows by the 1024 contracted columns), the weights' tile `x1` (the 1024 contracted rows by 5120
  columns) and anything in the result's tile, the body loads the first two whole, contracts them on the
  matrix unit into a zero accumulator (the activations first narrowed to bf16), and stores the product
  over the whole result tile: the inputs' buffers are left as found and the result's holds the product
  `k0_pay1 x0 x1`. Stated for any float instance.
-/
import proofs.«414613_j73581379715545_3_alg».proof.Proof.Gen.Kernel.Frame
import proofs.«414613_j73581379715545_3_alg».proof.Proof.Gen.Kernel.Skeleton
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-tile rectangles of the three staging buffers. -/
abbrev rx : Rect S256x1024 := Rect.unit (s := S256x1024) ![0, 0] S256x1024.size inb_S256x1024_S256x1024_0_0
abbrev rw' : Rect S1024x5120 := Rect.unit (s := S1024x5120) ![0, 0] S1024x5120.size inb_S1024x5120_S1024x5120_0_0
abbrev ro : Rect S256x5120 := Rect.unit (s := S256x5120) ![0, 0] S256x5120.size inb_S256x5120_S256x5120_0_0

theorem zero2 : (![0, 0] : Fin 2 → Nat) = fun _ => 0 := funext fun a => by fin_cases a <;> rfl

/-- The one store covers the result tile. -/
theorem cover_o (p0 : Vec F S256x5120 .f32) (y : S256x5120.Idx) :
    ∃ pc ∈ ([⟨ro, p0⟩] : List (View.Piece (Elt F) S256x5120 .f32)), y ∈ pc.1.set :=
  ⟨_, List.mem_singleton_self _, View.mem_set_unit_zero zero2 inb_S256x5120_S256x5120_0_0 y⟩

set_option maxHeartbeats 1000000 in
/-- The body's triple on whole staging memrefs. -/
theorem sound_kernel (c : Dev nD) (E : Set ℕ) (i : grid0.Coords)
    (arg2 : Memref sig .tc .vmem S256x1024 .f32) (harg2 : arg2.IsWhole)
    (arg3 : Memref sig .tc .vmem S1024x5120 .bf16) (harg3 : arg3.IsWhole)
    (arg4 : Memref sig .tc .vmem S256x5120 .f32) (harg4 : arg4.IsWhole)
    (x0 : Vec F S256x1024 .f32) (x1 : Vec F S1024x5120 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k0_pay1 x0 x1)) -∗ K ⟨⟩))
      ⊢ wp frame (wpE (defs₀ (F := F)) Variants.none c none) E (cc0__hd_rp_kernel i arg2 harg2 arg3 harg3 arg4 harg4) K := by
  simp only [cc0__hd_rp_kernel_eq_skeleton]; unfold cc0__hd_rp_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_o _), View.canon_unit_zero zero2]
  simp only [View.readAt_eq_ld, View.ld_unit_zero (S := S256x1024) zero2, View.ld_unit_zero (S := S1024x5120) zero2]

end Cert.Kernel.Hand

end
-- ==== Proof.KFrame.lean ====
/-
  The frame of the kernel as printed (any float instance, used at the word-level one): the program runs
  to its end without a fault and leaves both argument arrays as launched. Nothing is said here of what
  the result holds: at the word level the matrix unit's product is not a sum one can split by columns,
  and the columns of the weights' buffer past the array's end hold words nothing names, so what the body
  leaves in the result's buffer is constrained by nothing. The proof data is therefore relational, each
  window's relation the one that always holds; the body needs only ownership of its three buffers.
  The two argument arrays are staged by no window (the windows stage the flattened activations, the
  narrowed weights and the result): they pass by the region untouched.
-/
import proofs.«414613_j73581379715545_3_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data: the arrays as the region finds them; every buffer may be left at any
    contents; the invariant is the class's; nothing owed; full shares. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body at point `t`: whatever the three current buffers hold, it runs and hands them back. -/
theorem sound_body (c : Dev nD) (t : Fin cfg0.N) (Y : (w : Fin cfg0.W) → (cfg0.win w).block.Idx → Elt F (cfg0.win w).elt) :
    iprop((rdats m c).Φ t.castSucc ∗ (rdats m c).owesAt () t.castSucc
        ∗ owns (c : Thread nD τ) (st0_0 t) fullShare (Y 0) ∗ owns (c : Thread nD τ) (st0_1 t) fullShare (Y 1)
        ∗ owns (c : Thread nD τ) (st0_2 t) fullShare (Y 2))
      ⊢ wp frame (wpE (defs₀ (F := F)) Variants.none c none) Set.univ (bodyAt0 t) (fun _ =>
        iprop((rdats m c).Φ t.succ ∗ (rdats m c).owesAt () t.succ
          ∗ (∃ X, ⌜(rdats m c).after 0 t (Y 0) X⌝ ∗ owns (c : Thread nD τ) (st0_0 t) fullShare X)
          ∗ (∃ X, ⌜(rdats m c).after 1 t (Y 1) X⌝ ∗ owns (c : Thread nD τ) (st0_1 t) fullShare X)
          ∗ (∃ X, ⌜(rdats m c).after 2 t (Y 2) X⌝ ∗ owns (c : Thread nD τ) (st0_2 t) fullShare X))) := by
  unfold bodyAt0
  rw [show (rdats m c).Φ t.succ = (rdats m c).Φ t.castSucc from rfl,
    show (rdats m c).owesAt () t.succ = (rdats m c).owesAt () t.castSucc from rfl]
  iintro ⟨HΦ, Ho, H0, H1, H2⟩
  iapply (sound_kernel (F := F) c Set.univ (grid0.coords t) _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  · iexists (k0_pay1 (Y 0) (Y 1)); isplitr; · ipureintro; trivial
    iexact H2

/-- The body obligation of the relational data. -/
theorem body_obligation (c : Dev nD) : (rdats (F := F) m c).BodyObligation (defs₀ (F := F)) Variants.none () Set.univ := fun t Y _ => by
  rw [bigSep_W0, bigSep_W0]
  exact sound_body m c t Y

set_option backward.isDefEq.respectTransparency.types false in
/-- Every weakly fair execution of the program terminates without a fault; every unscoped buffer no
    window stages ends as the region found it. -/
theorem run_main : θ_run defs (onTc (τ := τ) (main (F := F))) (s₀ m ρ) (RDat.FramePost cfg0 (rdats m) (V m)) :=
  RDat.θ_run_frame cfgs (0 : Fin 1) launch0 defs₀ Variants.none (rdats m) m ρ main
    (hbody := body_obligation m) (hshare := fun c w => by unfold RDat.share; split <;> rfl)
    (howed := fun _ _ => rfl) (V := V m) (hmain := hmain m Variants.none) (hA := fun _ _ => rfl) (hΦ := fun _ _ => rfl)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m ρ)

end Cert.Kernel.Hand

end
-- ==== Proof.KiBody.lean ====
/-
  The kernel body as one step of the pipeline. On whole staging buffers holding the activations' tile
  `x0` (256 rows by the 1024 contracted columns), the weights' tile `x1` (the 1024 contracted rows by 5120
  columns) and anything in the result's tile, the body loads the first two whole, contracts them on the
  matrix unit into a zero accumulator (the activations first narrowed to bf16), and stores the product
  over the whole result tile: the inputs' buffers are left as found and the result's holds the product
  `k0_pay1 x0 x1`. Stated for any float instance.
-/
import proofs.«414613_j73581379715545_3_alg».proof.Proof.Gen.KernelIdeal.Frame
import proofs.«414613_j73581379715545_3_alg».proof.Proof.Gen.KernelIdeal.Skeleton
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-tile rectangles of the three staging buffers. -/
abbrev rx : Rect S256x1024 := Rect.unit (s := S256x1024) ![0, 0] S256x1024.size inb_S256x1024_S256x1024_0_0
abbrev rw' : Rect S1024x5120 := Rect.unit (s := S1024x5120) ![0, 0] S1024x5120.size inb_S1024x5120_S1024x5120_0_0
abbrev ro : Rect S256x5120 := Rect.unit (s := S256x5120) ![0, 0] S256x5120.size inb_S256x5120_S256x5120_0_0

theorem zero2 : (![0, 0] : Fin 2 → Nat) = fun _ => 0 := funext fun a => by fin_cases a <;> rfl

/-- The one store covers the result tile. -/
theorem cover_o (p0 : Vec F S256x5120 .f32) (y : S256x5120.Idx) :
    ∃ pc ∈ ([⟨ro, p0⟩] : List (View.Piece (Elt F) S256x5120 .f32)), y ∈ pc.1.set :=
  ⟨_, List.mem_singleton_self _, View.mem_set_unit_zero zero2 inb_S256x5120_S256x5120_0_0 y⟩

set_option maxHeartbeats 1000000 in
/-- The body's triple on whole staging memrefs. -/
theorem sound_kernel (c : Dev nD) (E : Set ℕ) (i : grid0.Coords)
    (arg2 : Memref sig .tc .vmem S256x1024 .f32) (harg2 : arg2.IsWhole)
    (arg3 : Memref sig .tc .vmem S1024x5120 .bf16) (harg3 : arg3.IsWhole)
    (arg4 : Memref sig .tc .vmem S256x5120 .f32) (harg4 : arg4.IsWhole)
    (x0 : Vec F S256x1024 .f32) (x1 : Vec F S1024x5120 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k0_pay1 x0 x1)) -∗ K ⟨⟩))
      ⊢ wp frame (wpE (defs₀ (F := F)) Variants.none c none) E (cc0__hd_rp_kernel i arg2 harg2 arg3 harg3 arg4 harg4) K := by
  simp only [cc0__hd_rp_kernel_eq_skeleton]; unfold cc0__hd_rp_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_o _), View.canon_unit_zero zero2]
  simp only [View.readAt_eq_ld, View.ld_unit_zero (S := S256x1024) zero2, View.ld_unit_zero (S := S1024x5120) zero2]

end Cert.KernelIdeal.Hand

end
-- ==== Proof.KiPay.lean ====
/-
  One tile's product at an index, at the exact instance: narrowing to bf16 is the identity there and
  the matrix unit's contraction into a zero accumulator is the plain sum over the 1024 contracted
  positions, so entry `(p, q)` of the 256 × 5120 product is `∑ k, x0 (p, k) · x1 (k, q)`. In particular
  column `q` of the product reads column `q` of the right tile and no other.
-/
import proofs.«414613_j73581379715545_3_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem

theorem lhs_tile_0 (i : S256x5120.Idx) (q : dot_S256x1024_S1024x5120_S256x5120_1_0_0_1_n_n.contr.Idx) :
    (dot_S256x1024_S1024x5120_S256x5120_1_0_0_1_n_n.lhsIdx i q 0).val = (i 0).val := by
  unfold DotDims.lhsIdx
  rw [dif_neg (show ¬(0 : Fin S256x1024.rank) ∈ dot_S256x1024_S1024x5120_S256x5120_1_0_0_1_n_n.lhsBatch by decide), dif_pos (show (0 : Fin S256x1024.rank) ∈ dot_S256x1024_S1024x5120_S256x5120_1_0_0_1_n_n.lhsNonContracting by decide)]
  rfl
theorem lhs_tile_1 (i : S256x5120.Idx) (q : dot_S256x1024_S1024x5120_S256x5120_1_0_0_1_n_n.contr.Idx) :
    (dot_S256x1024_S1024x5120_S256x5120_1_0_0_1_n_n.lhsIdx i q 1).val = (q ⟨0, by decide⟩).val :=
  dot_S256x1024_S1024x5120_S256x5120_1_0_0_1_n_n.lhsIdx_val_of_single rfl i q
theorem rhs_tile_0 (i : S256x5120.Idx) (q : dot_S256x1024_S1024x5120_S256x5120_1_0_0_1_n_n.contr.Idx) :
    (dot_S256x1024_S1024x5120_S256x5120_1_0_0_1_n_n.rhsIdx i q 0).val = (q ⟨0, by decide⟩).val :=
  dot_S256x1024_S1024x5120_S256x5120_1_0_0_1_n_n.rhsIdx_val_of_single rfl i q
theorem rhs_tile_1 (i : S256x5120.Idx) (q : dot_S256x1024_S1024x5120_S256x5120_1_0_0_1_n_n.contr.Idx) :
    (dot_S256x1024_S1024x5120_S256x5120_1_0_0_1_n_n.rhsIdx i q 1).val = (i 1).val := by
  unfold DotDims.rhsIdx
  rw [dif_neg (show ¬(1 : Fin S1024x5120.rank) ∈ dot_S256x1024_S1024x5120_S256x5120_1_0_0_1_n_n.rhsBatch by decide), dif_pos (show (1 : Fin S1024x5120.rank) ∈ dot_S256x1024_S1024x5120_S256x5120_1_0_0_1_n_n.rhsNonContracting by decide)]
  rfl

/-- Row `i 0`, contracted position `k` of the left tile; -/
abbrev tl (i : S256x5120.Idx) (k : Fin 1024) : S256x1024.Idx := fun a => match a with
  | ⟨0, _⟩ => ⟨(i 0).val, (i 0).isLt⟩
  | ⟨1, _⟩ => ⟨k.val, k.isLt⟩
/-- contracted position `k`, column `i 1` of the right tile. -/
abbrev tr (i : S256x5120.Idx) (k : Fin 1024) : S1024x5120.Idx := fun a => match a with
  | ⟨0, _⟩ => ⟨k.val, k.isLt⟩
  | ⟨1, _⟩ => ⟨(i 1).val, (i 1).isLt⟩

/-- The body's payload at an index is the sum of products over the contracted axis. -/
theorem pay_apply (x0 : Vec Ideal S256x1024 .f32) (x1 : Vec Ideal S1024x5120 .bf16) (i : S256x5120.Idx) :
    k0_pay1 (F := Ideal) x0 x1 i = ∑ k : Fin 1024, x0 (tl i k) * x1 (tr i k) := by
  unfold k0_pay1
  simp only [shapeCast_self, matmul]
  rw [Ideal.matmul_constant_zero_apply, ← Equiv.sum_comp (ValueIdx.contrEquiv1 dot_S256x1024_S1024x5120_S256x5120_1_0_0_1_n_n 1024 rfl rfl).symm]
  refine Finset.sum_congr rfl fun k _ => ?_
  have hk := ValueIdx.contrEquiv1_symm_val dot_S256x1024_S1024x5120_S256x5120_1_0_0_1_n_n 1024 rfl rfl k
  have el : dot_S256x1024_S1024x5120_S256x5120_1_0_0_1_n_n.lhsIdx i ((ValueIdx.contrEquiv1 dot_S256x1024_S1024x5120_S256x5120_1_0_0_1_n_n 1024 rfl rfl).symm k) = tl i k := funext fun a => Fin.ext (by
    match a with
    | ⟨0, _⟩ => exact lhs_tile_0 _ _
    | ⟨1, _⟩ => exact (lhs_tile_1 _ _).trans hk)
  have er : dot_S256x1024_S1024x5120_S256x5120_1_0_0_1_n_n.rhsIdx i ((ValueIdx.contrEquiv1 dot_S256x1024_S1024x5120_S256x5120_1_0_0_1_n_n 1024 rfl rfl).symm k) = tr i k := funext fun a => Fin.ext (by
    match a with
    | ⟨0, _⟩ => exact (rhs_tile_0 _ _).trans hk
    | ⟨1, _⟩ => exact rhs_tile_1 _ _)
  rw [el, er]
  rfl

end Cert.KernelIdeal.Hand

end
-- ==== Proof.KiData.lean ====
/-
  The proof data of the pipelined contraction at the exact instance, and what the body finds in and
  leaves in its buffers. The grid has 32 points `t = 16·j + i`: point `t` multiplies the 256
  activation rows `256·i ‥ 256·i+255` (all 1024 contracted columns) by the weight columns
  `5120·j ‥` and writes the 256 × 5120 product tile at rows `256·i ‥`, columns `5120·j ‥`. The second
  column half overhangs the 10000 columns by 240: only 4880 columns of the weight tile are fetched and
  only 4880 columns of the product are written back; the other 240 columns of both buffers hold values
  nothing names. Column `n` of a product depends on column `n` of the weight tile only, so the columns
  that are written back are those of the whole product `x · w`, whatever the other 240 hold.
-/
import proofs.«414613_j73581379715545_3_alg».proof.Proof.KiBody
import proofs.«414613_j73581379715545_3_alg».proof.Proof.KiPay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The schedule, decided over the grid -/

/-- The three index maps at point `t`: the activations' tile follows the row tile of the result and
    spans the contracted axis, the weights' tile spans the contracted axis and follows the column
    half of the result; the weights' and the result's tiles are cut alike on the column axis, and
    nothing is cut on the other axes. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_1.xsize (grid0.coords t) (0 : Fin 2) = 1024
    ∧ win0_1.xsize (grid0.coords t) (1 : Fin 2) = win0_2.xsize (grid0.coords t) (1 : Fin 2)
    ∧ win0_2.xsize (grid0.coords t) (0 : Fin 2) = 256
    ∧ win0_2.index t (0 : Fin 2) = t.val % 16 ∧ win0_2.index t (1 : Fin 2) = t.val / 16
    ∧ win0_2.xsize (grid0.coords t) (1 : Fin 2) = (if t.val / 16 = 0 then 5120 else 4880) :=
  (by decide +kernel : ∀ t : Fin grid0.N, _)

/-! ## The whole product -/

/-- Row `i 0`, contracted position `k` of the activations; -/
abbrev lix (i : S4096x10000.Idx) (k : Fin 1024) : S4096x1024.Idx := fun a => match a with
  | ⟨0, _⟩ => ⟨(i 0).val, (i 0).isLt⟩
  | ⟨1, _⟩ => ⟨k.val, k.isLt⟩
/-- contracted position `k`, column `i 1` of the weights. -/
abbrev rix (i : S4096x10000.Idx) (k : Fin 1024) : S1024x10000.Idx := fun a => match a with
  | ⟨0, _⟩ => ⟨k.val, k.isLt⟩
  | ⟨1, _⟩ => ⟨(i 1).val, (i 1).isLt⟩

/-- The product of the flattened activations and the weights, entry by entry. -/
def prod (a0 : Vec Ideal S4096x1024 .f32) (a1 : Vec Ideal S1024x10000 .bf16) : Vec Ideal S4096x10000 .f32 :=
  fun i => ∑ k : Fin 1024, a0 (lix i k) * a1 (rix i k)

/-- The product of the two arrays the region finds. -/
abbrev Gout (c : Dev nD) : Vec Ideal S4096x10000 .f32 := prod (V m c main_v0) (V m c main_v1)

/-! ## The proof data -/

/-- After the body at point `t`: the activations' buffer holds its tile; the weights' buffer its tile
    on the columns inside the array; the result's buffer the tile of the whole product on the columns
    inside the array. Off those columns the two fillers are zero: nothing reads them. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => win0_2.fill (grid0.coords t) (fun _ => (0 : EReal)) ((win0_2.blk t).view.read (Elt Ideal) (Gout m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) :
    (dats m 0 c).after 1 t = win0_1.fill (grid0.coords t) (fun _ => (0 : EReal)) (iblk m c 1 t) := by dsimp only [dats]
theorem after_2 (c : Dev nD) (t : Fin cfg0.N) :
    (dats m 0 c).after 2 t = win0_2.fill (grid0.coords t) (fun _ => (0 : EReal)) ((win0_2.blk t).view.read (Elt Ideal) (Gout m c)) := by
  dsimp only [dats]

/-! ## What the body finds -/

/-- The activations' buffer holds the point's tile, fetched there or not. -/
theorem before_0 (c : Dev nD) (t : Fin cfg0.N) (d) : (dats m 0 c).before 0 t d = iblk m c 0 t :=
  before0_0_of m (dats m 0 c) (A_eq m c 0) (after_0 m c) t d

/-- The weights' buffer holds the point's tile on the columns inside the array, fetched there or not
    (the column half changes only where the tile is fetched), and anything on the others. -/
theorem before_1 (c : Dev nD) (t : Fin cfg0.N) (d) :
    (dats m 0 c).before 1 t d = win0_1.fill (grid0.coords t) d (iblk m c 1 t) := by
  refine ((dats m 0 c).before_in_eq_fetched 1 rfl (fun _ => rfl) (fun t t' h => ?_) (fun t => ?_) t d).trans ?_
  · funext a
    show Pipeline.Clip.of (cc0_transform_1 (grid0.coords t) a) _ _ = Pipeline.Clip.of (cc0_transform_1 (grid0.coords t') a) _ _
    rw [show cc0_transform_1 (grid0.coords t) = cc0_transform_1 (grid0.coords t') from h]
  · rw [after_1]
    exact (win0_1.cut_fill _ _ _).trans (by unfold Dat.blockOf iblk; rw [A_eq]; try rfl)
  · unfold Dat.fetched Dat.blockOf iblk; rw [A_eq]; try rfl

/-- The result's buffer holds anything: every point writes it back. -/
theorem before_2 (c : Dev nD) (t : Fin cfg0.N) (d) : (dats m 0 c).before 2 t d = d := by
  refine (dats m 0 c).before_out_reset 2 rfl t ?_ d
  by_cases h : t.val = 0
  · exact .inl h
  · exact .inr ⟨h, flush0_2 _⟩

/-! ## What the body leaves -/

/-- A filled buffer read at an index the transfer moves is the block there. -/
theorem fill_of_moved {G : Pipeline.Grid} (w : Pipeline.Window sig G) {α : Type} (i : G.Coords) (d : w.block.Idx → α)
    (g : (w.xblock i).Idx → α) (j : w.block.Idx) (h : w.moved i j = true) :
    w.fill i d g j = g fun a => ⟨(j a).val, (w.moved_iff i j).mp h a⟩ := by
  unfold Pipeline.Window.fill; rw [dif_pos h]

/-- THE COLUMNS WRITTEN BACK. The product of the activations' tile and of the weights' buffer — the
    weights' tile on the columns inside the array, anything on the others — read on the columns inside
    the array, is the tile of the whole product: entry `(p, q)` sums over `k` the activations at row
    `256·i + p` and the weights at column `5120·j + q`, and `q` is a column the fetch filled. -/
theorem cut_pay (c : Dev nD) (t : Fin cfg0.N) (d1 : S1024x5120.Idx → Elt Ideal .bf16) :
    win0_2.cut (grid0.coords t) (k0_pay1 (F := Ideal) (iblk m c 0 t) (win0_1.fill (grid0.coords t) d1 (iblk m c 1 t)))
      = (win0_2.blk t).view.read (Elt Ideal) (Gout m c) := by
  obtain ⟨e00, e01, e10, e11, x10, x11, x20, i20, i21, x21⟩ := idx_facts t
  funext j
  show k0_pay1 (F := Ideal) (iblk m c 0 t) (win0_1.fill (grid0.coords t) d1 (iblk m c 1 t)) (win0_2.xinj (grid0.coords t) j)
    = prod (V m c main_v0) (V m c main_v1) ((win0_2.blk t).view.emb j)
  rw [pay_apply]
  unfold prod
  refine Finset.sum_congr rfl fun k _ => ?_
  have hj1 : (j 1).val < win0_2.xsize (grid0.coords t) 1 := (j 1).isLt
  have hm : win0_1.moved (grid0.coords t) (tr (win0_2.xinj (grid0.coords t) j) k) = true := by
    rw [Pipeline.Window.moved_iff]
    intro a
    match a with
    | ⟨0, _⟩ => show k.val < win0_1.xsize (grid0.coords t) (0 : Fin 2); have := k.isLt; omega
    | ⟨1, _⟩ => show (j 1).val < win0_1.xsize (grid0.coords t) (1 : Fin 2); omega
  rw [fill_of_moved win0_1 _ _ _ _ hm]
  have h0 : iblk m c 0 t (tl (win0_2.xinj (grid0.coords t) j) k) = V m c main_v0 (lix ((win0_2.blk t).view.emb j) k) := by
    show V m c main_v0 ((win0_0.blk t).view.emb (tl (win0_2.xinj (grid0.coords t) j) k)) = _
    refine congrArg (V m c main_v0 : S4096x1024.Idx → EReal) (funext fun a => Fin.ext ?_)
    match a with
    | ⟨0, _⟩ => show win0_0.index t (0 : Fin 2) * 256 + 1 * (j 0).val = win0_2.index t (0 : Fin 2) * 256 + 1 * (j 0).val; omega
    | ⟨1, _⟩ => show win0_0.index t (1 : Fin 2) * 1024 + 1 * k.val = k.val; omega
  have h1 : (iblk m c 1 t fun a => ⟨(tr (win0_2.xinj (grid0.coords t) j) k a).val, (win0_1.moved_iff _ _).mp hm a⟩)
      = V m c main_v1 (rix ((win0_2.blk t).view.emb j) k) := by
    show V m c main_v1 ((win0_1.blk t).view.emb _) = _
    refine congrArg (V m c main_v1 : S1024x10000.Idx → EReal) (funext fun a => Fin.ext ?_)
    match a with
    | ⟨0, _⟩ => show win0_1.index t (0 : Fin 2) * 1024 + 1 * k.val = k.val; omega
    | ⟨1, _⟩ => show win0_1.index t (1 : Fin 2) * 5120 + 1 * (j 1).val = win0_2.index t (1 : Fin 2) * 5120 + 1 * (j 1).val; omega
  rw [h0, h1]

/-! ## The body obligation -/

/-- The body at point `t`: the activations' buffer arrives at its tile and the weights' at its tile on
    the columns inside the array (`before_0`, `before_1`), the result's at anything (`before_2`); the
    first two leave as they came and the result's leaves at their product, whose columns inside the
    array are the whole product's (`cut_pay`) — all the obligation asks of a window whose tiles overhang. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d)))
      ⊢ wp frame (wpE (defs₀ (F := Ideal)) Variants.none c none) Set.univ (bodyAt0 t) (fun _ =>
        iprop((dats m 0 c).Φ t.succ ∗ (dats m 0 c).owesAt () t.succ
          ∗ owns (c : Thread nD τ) (st0_0 t) fullShare ((dats m 0 c).after 0 t)
          ∗ (∃ d, owns (c : Thread nD τ) (st0_1 t) fullShare (win0_1.fill (grid0.coords t) d (win0_1.cut (grid0.coords t) ((dats m 0 c).after 1 t))))
          ∗ (∃ d, owns (c : Thread nD τ) (st0_2 t) fullShare (win0_2.fill (grid0.coords t) d (win0_2.cut (grid0.coords t) ((dats m 0 c).after 2 t)))))) := by
  unfold bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, Pipeline.Window.cut_fill, Pipeline.Window.cut_fill]
  iintro ⟨HΦ, Ho, ⟨%d0, H0⟩, ⟨%d1, H1⟩, ⟨%d2, H2⟩⟩
  iapply (sound_kernel (F := Ideal) c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1; iexact H1
  · iexists (k0_pay1 (F := Ideal) (iblk m c 0 t) (win0_1.fill (grid0.coords t) d1 (iblk m c 1 t)))
    rw [← cut_pay m c t d1, Pipeline.Window.fill_cut]
    iexact H2

/-- The library's body obligation, at every point. -/
theorem body_obligation (c : Dev nD) : BodyObligationLoose (dats m 0 c) (defs₀ (F := Ideal)) Variants.none () Set.univ := fun t => by
  rw [bigSep_W0, bigSep_W0]
  exact sound_body m c t

end Cert.KernelIdeal.Hand

end
-- ==== Proof.KiRun.lean ====
/-
  The run of the idealized kernel and what its result array holds. Every point writes its product tile
  back on the columns inside the array; the tiles at the 32 points cover all 4096 rows and all 10000
  columns (point `16·(n / 5120) + b / 256` covers entry `(b, n)`), and each writes there the whole
  product's entries, so the array ends at the whole product of the two arrays the region finds: the
  activations flattened to 4096 × 1024, and the weights narrowed to bf16 — which at the exact instance
  are the weights.
-/
import proofs.«414613_j73581379715545_3_alg».proof.Proof.KiData
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

set_option backward.isDefEq.respectTransparency.types false in
/-- Every weakly fair execution terminates without a fault; each staged array ends at what the
    write-backs make of it and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- What point `t` writes back is its tile of the whole product. -/
theorem flushed_eq (c : Dev nD) (t : Fin cfg0.N) :
    (dats m 0 c).flushed 2 t = ((cfg0.win 2).blk t).view.read (Elt Ideal) (Gout m c) := by
  show (cfg0.win 2).cut (grid0.coords t) ((dats m 0 c).after 2 t) = _
  rw [after_2]
  exact win0_2.cut_fill _ _ _

/-- An entry is in point `t`'s tile iff its row and its column are in the tile's ranges, the column
    range cut at the array's end. -/
theorem mem_blk (t : Fin cfg0.N) (i : S4096x10000.Idx) :
    i ∈ ((cfg0.win 2).blk t).view.set ↔ ∀ a : Fin 2, win0_2.index t a * S256x5120.size a ≤ (i a).val
      ∧ (i a).val < win0_2.index t a * S256x5120.size a + win0_2.xsize (grid0.coords t) a := by
  show i ∈ ((View.whole main_v2).slice (win0_2.rect t)).set ↔ _
  rw [View.set_slice_whole, Rect.mem_set_unit]
  exact Iff.rfl

/-- Every entry of the result is in some point's tile. -/
theorem cover (i : S4096x10000.Idx) :
    ∃ t : Fin cfg0.N, (cfg0.win 2).flush t = true ∧ i ∈ ((cfg0.win 2).blk t).view.set := by
  have hi0 : (i 0).val < 4096 := (i 0).isLt
  have hi1 : (i 1).val < 10000 := (i 1).isLt
  have hN : 16 * ((i 1).val / 5120) + (i 0).val / 256 < cfg0.N := Nat.lt_of_lt_of_eq (by omega) N_0.symm
  refine ⟨⟨_, hN⟩, flush0_2 _, ?_⟩
  rw [mem_blk]
  obtain ⟨-, -, -, -, -, -, x20, i20, i21, x21⟩ := idx_facts ⟨_, hN⟩
  dsimp only at i20 i21 x21
  intro a
  match a with
  | ⟨0, _⟩ =>
    show win0_2.index ⟨_, hN⟩ (0 : Fin 2) * 256 ≤ (i 0).val
      ∧ (i 0).val < win0_2.index ⟨_, hN⟩ (0 : Fin 2) * 256 + win0_2.xsize (grid0.coords ⟨_, hN⟩) (0 : Fin 2)
    rw [i20, x20]; omega
  | ⟨1, _⟩ =>
    show win0_2.index ⟨_, hN⟩ (1 : Fin 2) * 5120 ≤ (i 1).val
      ∧ (i 1).val < win0_2.index ⟨_, hN⟩ (1 : Fin 2) * 5120 + win0_2.xsize (grid0.coords ⟨_, hN⟩) (1 : Fin 2)
    rw [i21, x21]; split <;> omega

/-- The result array after the run is the whole product of the arrays the region finds. -/
theorem final (c : Dev nD) : (dats m 0 c).arrAt 2 cfg0.N = Gout m c :=
  (dats m 0 c).arrAt_eq_of_cover 2 (Gout m c) (fun t _ => flushed_eq m c t) cover

/-- The region finds the activations flattened, -/
theorem V_v0 (c : Dev nD) : (V m c main_v0 : Vec Ideal S4096x1024 .f32)
    = shapeCast S4096x1024 (m ((c : Thread nD τ).loc main_arg0)) shapeCasts_S4096x32x32_S4096x1024 := by
  dsimp only [V, hostOps0]; after_results; rfl
/-- and the weights narrowed to bf16: at the exact instance, the weights. -/
theorem V_v1 (c : Dev nD) : (V m c main_v1 : Vec Ideal S1024x10000 .bf16) = m ((c : Thread nD τ).loc main_arg1) := by
  dsimp only [V, hostOps0]; after_results; rfl

/-- THE RUN: the result array ends at the product of the flattened activations and the weights, the
    arguments unchanged. -/
theorem run : θ_run defs (onTc (τ := τ) (main (F := Ideal))) ⟨m, fun _ => 0, ρ⟩ fun r => ∀ c : Dev nD,
      r.2.mem ((c.tc : Thread nD τ).loc main_v2)
        = prod (shapeCast S4096x1024 (m ((c.tc : Thread nD τ).loc main_arg0)) shapeCasts_S4096x32x32_S4096x1024) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans ((final m c).trans (by rw [Gout, V_v0, V_v1])),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m ρ)

end Cert.KernelIdeal.Hand

end
-- ==== Proof.RefSide.lean ====
/-
  The reference at the exact instance: it flattens the activations to 4096 × 1024 and contracts them
  with the weights in one `dot_general`, whose entry `(b, n)` is the sum over the 1024 contracted
  positions of activation `(b, k)` times weight `(k, n)` — the same sum, term for term, as the entry the
  kernel's tiles write.
-/
import proofs.«414613_j73581379715545_3_alg».proof.Proof.Gen.ReferenceIdeal.Run
import proofs.«414613_j73581379715545_3_alg».proof.Proof.Gen.ReferenceIdeal.Read
import proofs.«414613_j73581379715545_3_alg».proof.Proof.KiData

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem

/-- The reference's result (its `dot_general` stage) is the product the kernel's run ends at. -/
theorem result_eq (x0 : (⟨S4096x32x32, .f32⟩ : BufTy).Contents (Elt Ideal)) (x1 : (⟨S1024x10000, .f32⟩ : BufTy).Contents (Elt Ideal)) :
    val_main_v1 (F := Ideal) x0 x1
      = Cert.KernelIdeal.Hand.prod (shapeCast Cert.KernelIdeal.S4096x1024 x0 Cert.KernelIdeal.Facts₀.shapeCasts_S4096x32x32_S4096x1024) x1 := by
  funext i
  rw [val_main_v1_apply]
  unfold Cert.KernelIdeal.Hand.prod val_main_v0
  have el : ∀ k : Fin 1024, lidx_main_v1 i k = Cert.KernelIdeal.Hand.lix i k := fun k =>
    funext fun a => Fin.ext (by match a with | ⟨0, _⟩ => rfl | ⟨1, _⟩ => rfl)
  have er : ∀ k : Fin 1024, ridx_main_v1 i k = Cert.KernelIdeal.Hand.rix i k := fun k =>
    funext fun a => Fin.ext (by match a with | ⟨0, _⟩ => rfl | ⟨1, _⟩ => rfl)
  refine Finset.sum_congr rfl fun k _ => ?_
  rw [el, er]

end Cert.ReferenceIdeal.RefValue

end
-- ==== Proof.lean ====
/-
  A 4096 × 1024 by 1024 × 10000 product computed tile by tile against one whole product.

  The kernel flattens the activations `x` to 4096 × 1024, narrows the weights `w` to bf16, and runs a
  grid of 2 × 16 points: point `(j, i)` narrows the 256 × 1024 activation tile at rows `256·i` to bf16 and
  contracts it with the 1024 × 5120 weight tile at columns `5120·j` into a zero f32 accumulator, storing
  the 256 × 5120 product tile at rows `256·i`, columns `5120·j`. The second column half overhangs the 10000
  columns by 240; the fetch and the write-back are cut there. The reference flattens `x` and contracts it
  with `w` in one `dot_general`.

  Over the extended reals a change of float format is the identity and both contractions are the plain sum
  `∑ k, x (b, k) · w (k, n)` over the 1024 contracted positions, so the two results agree entry by entry with
  no algebraic law beyond reading both sums at the same index: column `n` of a product tile reads column `n`
  of the weight tile only, so the 240 columns of the weight buffer that the cut fetch leaves unnamed reach
  only product columns that the cut write-back drops. The precondition is not used.

  The frames: the idealized kernel's and the reference's are their value runs with the result dropped; the
  word-level kernel's is proved with nothing said of the result. The idealization rewrote nothing.
-/
import proofs.«414613_j73581379715545_3_alg».proof.Defs
import proofs.«414613_j73581379715545_3_alg».proof.Proof.Gen.Kernel
import proofs.«414613_j73581379715545_3_alg».proof.Proof.Gen.KernelIdeal
import proofs.«414613_j73581379715545_3_alg».proof.Proof.Gen.ReferenceIdeal
import proofs.«414613_j73581379715545_3_alg».proof.Proof.Gen.Pre_finite_inputs
import proofs.«414613_j73581379715545_3_alg».proof.Proof.KFrame
import proofs.«414613_j73581379715545_3_alg».proof.Proof.KiRun
import proofs.«414613_j73581379715545_3_alg».proof.Proof.RefSide
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => (θ_run Cert.KernelIdeal.defs _ _).mono (fun _ h c => (h c).2) (Cert.KernelIdeal.Hand.run m ρ)

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both programs end at the product of the flattened activations and the weights, read off arguments
    that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v1_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
